-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096x1 : Shape := ⟨3, ![8, 4096, 1]⟩
abbrev S8x1x4096 : Shape := ⟨3, ![8, 1, 4096]⟩
abbrev S1x256x3 : Shape := ⟨3, ![1, 256, 3]⟩
abbrev S1x4096x3 : Shape := ⟨3, ![1, 4096, 3]⟩
abbrev S1x256x1 : Shape := ⟨3, ![1, 256, 1]⟩
abbrev S1x1x4096 : Shape := ⟨3, ![1, 1, 4096]⟩
abbrev S256x3 : Shape := ⟨2, ![256, 3]⟩
abbrev S4096x3 : Shape := ⟨2, ![4096, 3]⟩
abbrev S256x1 : Shape := ⟨2, ![256, 1]⟩
abbrev S3x4096 : Shape := ⟨2, ![3, 4096]⟩
abbrev S1x4096 : Shape := ⟨2, ![1, 4096]⟩
abbrev S256x4096 : Shape := ⟨2, ![256, 4096]⟩
abbrev S256 : Shape := ⟨1, ![256]⟩
abbrev S4096 : Shape := ⟨1, ![4096]⟩
abbrev S4096x1 : Shape := ⟨2, ![4096, 1]⟩
abbrev S8x4096 : Shape := ⟨2, ![8, 4096]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x1, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v42 : BitVec 1 := Scalar.cmpi .eq arg1 c0_i32
  let v43 : BitVec 32 := Scalar.extui v42
  let c0_i32_12 : BitVec 32 := 0#32
  let v44 : BitVec 1 := Scalar.cmpi .ne v43 c0_i32_12
  v44

def k0_cond2 (i : grid0.Coords) : BitVec 1 :=
  let arg1 : BitVec 32 := BitVec.ofNat 32 (i 1).val
  let c0_i32_13 : BitVec 32 := 0#32
  let v45 : BitVec 1 := Scalar.cmpi .sgt arg1 c0_i32_13
  let v46 : BitVec 32 := Scalar.extui v45
  let c0_i32_14 : BitVec 32 := 0#32
  let v47 : BitVec 1 := Scalar.cmpi .ne v46 c0_i32_14
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  slices_S256x3_o0_0_S256x1 : S256x3.Slices ![0, 0] S256x1
  slices_S256x3_o0_1_S256x1 : S256x3.Slices ![0, 1] S256x1
  slices_S256x3_o0_2_S256x1 : S256x3.Slices ![0, 2] S256x1
  transposes_S4096x3_p1_0_S3x4096 : S4096x3.Transposes [1, 0] S3x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  broadcasts_S256x1_S256x4096 : S256x1.Broadcasts S256x4096
  broadcasts_S1x4096_S256x4096 : S1x4096.Broadcasts S256x4096
  reduces_S256x3_S256 : S256x3.Reduces [1] S256
  shapeCasts_S256_S256x1 : S256.ShapeCasts S256x1
  reduces_S4096x3_S4096 : S4096x3.Reduces [1] S4096
  shapeCasts_S4096_S4096x1 : S4096.ShapeCasts S4096x1
  transposes_S4096x1_p1_0_S1x4096 : S4096x1.Transposes [1, 0] S1x4096
  reduces_S256x4096_S256 : S256x4096.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x4096_S4096 : S256x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S_d0_1 : S8x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x4096x3.size a
  hwx0_0 : ∀ i : grid0.Coords, EltTy.bits .f32 = 32 ∨ (Rect.block (s := S8x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x4096x1.size a
  hwx0_2 : ∀ i : grid0.Coords, EltTy.bits .f32 = 32 ∨ (Rect.block (s := S8x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Body.lean ====
/-
  The frame of the pairwise-distance kernel, for every float instance.

  One grid point (b, i) takes a tile of 256 rows of `x` (batch b, rows 256 i … 256 i + 255) and all 4096 rows of
  `y` (batch b), forms the 256 × 4096 matrix of squared distances `|x_n|² + |y_k|² − 2 x_n·y_k`, writes each row's
  minimum into the first output's block, and folds the columns' minima into the second output's block: at the first
  tile of a batch (i = 0) the block is the tile's column minima, at every later tile it is the lane-wise minimum of
  what the tile before left there and this tile's column minima. The second output's block index (b, 0, 0) does not
  move while i runs, so its staging buffer is carried from point to point and written back once per batch.

  * `colsAt n` : what the second output's staging buffer holds after the point of linear index n, by recursion on n;
  * `run_first`, `run_later` : the body's triple in the two cases of its pair of conditionals;
  * `dats`, `sound_body`, `body_obligation`, `run_main`, `frame` : the pipeline's proof data and the run.
-/
import proofs.«155115_j37623913513196_1_alg».proof.Proof.Gen.Kernel.Skeleton
import proofs.«155115_j37623913513196_1_alg».proof.Proof.Gen.Kernel.Frame
import Idealize.ShloMosaic.Lib.Pipeline.Value

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-! ## The two conditionals over the grid -/

/-- The first conditional (`i = 0`) holds exactly at the first tile of each batch: the points ≡ 0 (mod 16). -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second (`i > 0`) holds exactly at the other points. -/
theorem cond2_iff : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)
/-- One of the two holds at every point, so the second output's buffer is stored into at every point. -/
theorem live3 : ∀ i : grid0.Coords, idle0 3 i = false := by decide +kernel
theorem live3' : ∀ i : cfg0.grid.Coords, cfg0.idle 3 i = false := live3

/-! ## The body's triple, case by case -/

/-- The whole-buffer rectangle's offsets are zero. -/
theorem off3 : (![0, 0, 0] : Fin 3 → ℕ) = fun _ => 0 := funext fun a => by fin_cases a <;> rfl

/-- One store through the whole-buffer rectangle covers the row-minimum block. -/
theorem cover_rows (w : Vec F S1x256x1 .f32) (y : S1x256x1.Idx) :
    ∃ pc ∈ ([⟨Rect.unit (s := S1x256x1) ![0, 0, 0] S1x256x1.size inb_S1x256x1_S1x256x1_0_0_0, w⟩] : List (View.Piece (Elt F) S1x256x1 .f32)), y ∈ pc.1.set :=
  View.cover_of_tiled [⟨Rect.unit (s := S1x256x1) ![0, 0, 0] S1x256x1.size inb_S1x256x1_S1x256x1_0_0_0, w⟩] S1x256x1.size (by rfl) y

/-- One store through the whole-buffer rectangle covers the column-minimum block. -/
theorem cover_cols (w : Vec F S1x1x4096 .f32) (y : S1x1x4096.Idx) :
    ∃ pc ∈ ([⟨Rect.unit (s := S1x1x4096) ![0, 0, 0] S1x1x4096.size inb_S1x1x4096_S1x1x4096_0_0_0, w⟩] : List (View.Piece (Elt F) S1x1x4096 .f32)), y ∈ pc.1.set :=
  View.cover_of_tiled [⟨Rect.unit (s := S1x1x4096) ![0, 0, 0] S1x1x4096.size inb_S1x1x4096_S1x1x4096_0_0_0, w⟩] S1x1x4096.size (by rfl) y

/-- The body at a first tile (`i = 0`): from the input buffers at `x`, `y` and the outputs' at anything it leaves the
    row minima of the tile's distance matrix in the first output's buffer and the tile's column minima in the second's. -/
theorem run_first (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x256x1 .f32) (harg4 : arg4.IsWhole) (arg5 : Memref sig .tc .vmem S1x1x4096 .f32) (harg5 : arg5.IsWhole)
    (hc1 : k0_cond1 i = 1#1) (hc2 : ¬ k0_cond2 i = 1#1)
    (x : Vec F S1x256x3 .f32) (y : Vec F S1x4096x3 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ (iprop(owns (c : Thread nD τ) arg2 fullShare x ∗ owns (c : Thread nD τ) arg3 fullShare y
            ∗ owns (c : Thread nD τ) arg4 fullShare (k0_pay4 x y)
            ∗ owns (c : Thread nD τ) arg5 fullShare (k0_pay1 (k0_pay5 x y))) -∗ K ⟨⟩))
      ⊢ wp frame (wpE (defs₀ (F := F)) Variants.none c none) Set.univ (cc0__kernel i arg2 harg2 arg3 harg3 arg4 harg4 arg5 harg5) K := by
  simp only [cc0__kernel_eq_skeleton]; unfold cc0__kernel_skel
  unfold owns
  iintro ⟨⟨%f2, %hf2, H2⟩, ⟨%f3, %hf3, H3⟩, ⟨%d4, %f4, -, H4⟩, ⟨%d5, %f5, -, H5⟩, Hk⟩
  subst hf2 hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_rows _), View.canon_unit_zero off3]
    simp only [View.readAt_eq_ld, View.ld_unit_zero (S := S1x256x3) off3, View.ld_unit_zero (S := S1x4096x3) off3]
  iexists _; isplitr
  swap; · iexact H5
  ipureintro
  rw [View.read_writes_eq_canon _ _ _ (cover_cols _), View.canon_unit_zero off3]
  sl_unfold_words
  simp only [View.readAt_eq_ld, View.ld_unit_zero (S := S1x256x3) off3, View.ld_unit_zero (S := S1x4096x3) off3]

/-- The body at a later tile (`i > 0`): the second output's buffer, found at `p`, is left at the lane-wise minimum of `p`
    and the tile's column minima. -/
theorem run_later (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x256x1 .f32) (harg4 : arg4.IsWhole) (arg5 : Memref sig .tc .vmem S1x1x4096 .f32) (harg5 : arg5.IsWhole)
    (hc1 : ¬ k0_cond1 i = 1#1) (hc2 : k0_cond2 i = 1#1)
    (x : Vec F S1x256x3 .f32) (y : Vec F S1x4096x3 .f32) (p : Vec F S1x1x4096 .f32) (K : PUnit → sProp 𝕄) :
    iprop(owns (c : Thread nD τ) arg2 fullShare x ∗ owns (c : Thread nD τ) arg3 fullShare y
        ∗ (∃ d, owns (c : Thread nD τ) arg4 fullShare d) ∗ owns (c : Thread nD τ) arg5 fullShare p
        ∗ (iprop(owns (c : Thread nD τ) arg2 fullShare x ∗ owns (c : Thread nD τ) arg3 fullShare y
            ∗ owns (c : Thread nD τ) arg4 fullShare (k0_pay4 x y)
            ∗ owns (c : Thread nD τ) arg5 fullShare (k0_pay2 (k0_pay5 x y) p)) -∗ K ⟨⟩))
      ⊢ wp frame (wpE (defs₀ (F := F)) Variants.none c none) Set.univ (cc0__kernel i arg2 harg2 arg3 harg3 arg4 harg4 arg5 harg5) K := by
  simp only [cc0__kernel_eq_skeleton]; unfold cc0__kernel_skel
  unfold owns
  iintro ⟨⟨%f2, %hf2, H2⟩, ⟨%f3, %hf3, H3⟩, ⟨%d4, %f4, -, H4⟩, ⟨%f5, %hf5, H5⟩, Hk⟩
  subst hf2 hf3 hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_rows _), View.canon_unit_zero off3]
    simp only [View.readAt_eq_ld, View.ld_unit_zero (S := S1x256x3) off3, View.ld_unit_zero (S := S1x4096x3) off3]
  iexists _; isplitr
  swap; · iexact H5
  ipureintro
  rw [View.read_writes_eq_canon _ _ _ (cover_cols _), View.canon_unit_zero off3]
  sl_unfold_words
  simp only [View.readAt_eq_ld, View.ld_unit_zero (S := S1x256x3) off3, View.ld_unit_zero (S := S1x4096x3) off3,
    View.ld_unit_zero (S := S1x1x4096) off3]

/-! ## What the second output's buffer holds, point by point -/

variable (m : (ℓ : Loc nD τ sig) → Buf (Elt F) ℓ) (ρ : Dev nD → PrngReg)

/-- The tile of `x` at point `t`, at its literal type. -/
abbrev xblk (c : Dev nD) (t : Fin cfg0.N) : Vec F S1x256x3 .f32 := iblk m c 0 t
/-- The batch of `y` at point `t`, at its literal type. -/
abbrev yblk (c : Dev nD) (t : Fin cfg0.N) : Vec F S1x4096x3 .f32 := iblk m c 1 t

/-- The second output's staging buffer after the point of linear index `n`: the tile's column minima at the first
    tile of a batch, and at a later tile their lane-wise minimum with what the point before left. -/
def colsAt (c : Dev nD) : (n : ℕ) → n < cfg0.N → Vec F S1x1x4096 .f32
  | 0, hn => k0_pay1 (k0_pay5 (xblk m c ⟨0, hn⟩) (yblk m c ⟨0, hn⟩))
  | n + 1, hn =>
    if (n + 1) % 16 = 0 then k0_pay1 (k0_pay5 (xblk m c ⟨n + 1, hn⟩) (yblk m c ⟨n + 1, hn⟩))
    else k0_pay2 (k0_pay5 (xblk m c ⟨n + 1, hn⟩) (yblk m c ⟨n + 1, hn⟩)) (colsAt c n (Nat.lt_of_succ_lt hn))

/-- At the first tile of a batch: the tile's column minima. -/
theorem colsAt_first (c : Dev nD) (t : Fin cfg0.N) (h0 : t.val % 16 = 0) :
    colsAt m c t.val t.isLt = k0_pay1 (k0_pay5 (xblk m c t) (yblk m c t)) := by
  obtain ⟨n, hn⟩ := t
  cases n with
  | zero => rfl
  | succ n => exact (if_pos h0).trans rfl

/-- At a later tile: the minimum with what the point before left. -/
theorem colsAt_later (c : Dev nD) (t : Fin cfg0.N) (h0 : ¬ t.val % 16 = 0) :
    colsAt m c t.val t.isLt
      = k0_pay2 (k0_pay5 (xblk m c t) (yblk m c t)) (colsAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t`
    each input's buffer at its block, the first output's at the tile's row minima, the second's at `colsAt`; the
    invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (xblk m c t) (yblk m c t)
    | ⟨3, _⟩ => colsAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay4 (xblk m c t) (yblk m c t) := by dsimp only [dats]
theorem after0_3 (c : Dev nD) (t : Fin cfg0.N) : (dats m 0 c).after 3 t = colsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile the second output's staging buffer holds what the body left at the point before: the point is not
    the first, the block was not written back between (it is written back only at the last tile of a batch), and the
    window is stored into at every point and never clipped. -/
theorem before0_3_later (c : Dev nD) (t : Fin cfg0.N) (h0 : ¬ t.val % 16 = 0) (d) :
    (dats m 0 c).before 3 t d = colsAt m c (t.val - 1) (Nat.lt_of_le_of_lt (Nat.sub_le _ _) t.isLt) := by
  have hN : t.val < 128 := lt_of_lt_of_eq t.isLt (show cfg0.N = 128 from N_0)
  rw [Dat.before_out_kept _ 3 rfl t (by omega)
    (Bool.eq_false_iff.mpr fun h => by have := (flush0_3 _).mp h; dsimp only at this; omega)
    live3' (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks; the point's index decides which of the two cases it
    is in; at a later tile the second output's buffer holds what the point before left; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 16 = 0
  · rw [colsAt_first m c t h0]
    iintro ⟨HΦ, Ho, ⟨%d0, H0⟩, ⟨%d1, H1⟩, ⟨%d2, H2⟩, ⟨%d3, H3⟩⟩
    iapply (run_first c (grid0.coords t) _ _ _ _ _ _ _ _ ((cond1_iff t).mpr h0) (fun h => (cond2_iff t).mp h h0)
      (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colsAt_later m c t h0]
    simp only [before0_3_later m c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((cond1_iff t).mp h)) ((cond2_iff t).mpr h0)
      (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point (its post asks, window by window, whether the window is idle at the
    point: the second output's is not, by `live3`). -/
theorem body_obligation (c : Dev nD) : BodyObligation (dats (F := F) m 0 c) (defs₀ (F := F)) Variants.none () Set.univ := fun t => by
  rw [bigSep_W0, bigSep_W0]
  rw [live3' (cfg0.grid.coords t)]
  exact sound_body m c t

/-! ## The run and the frame -/

set_option backward.isDefEq.respectTransparency.types false in
/-- From any memory with zero counters every weakly fair execution of the program terminates, and every final state
    has each array of the pipeline at what the write-backs of the proof data make of it and every other buffer as the
    host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.KI.Body.lean ====
/-
  The frame of the pairwise-distance kernel, for every float instance.

  One grid point (b, i) takes a tile of 256 rows of `x` (batch b, rows 256 i … 256 i + 255) and all 4096 rows of
  `y` (batch b), forms the 256 × 4096 matrix of squared distances `|x_n|² + |y_k|² − 2 x_n·y_k`, writes each row's
  minimum into the first output's block, and folds the columns' minima into the second output's block: at the first
  tile of a batch (i = 0) the block is the tile's column minima, at every later tile it is the lane-wise minimum of
  what the tile before left there and this tile's column minima. The second output's block index (b, 0, 0) does not
  move while i runs, so its staging buffer is carried from point to point and written back once per batch.

  * `colsAt n` : what the second output's staging buffer holds after the point of linear index n, by recursion on n;
  * `run_first`, `run_later` : the body's triple in the two cases of its pair of conditionals;
  * `dats`, `sound_body`, `body_obligation`, `run_main`, `frame` : the pipeline's proof data and the run.
-/
import proofs.«155115_j37623913513196_1_alg».proof.Proof.Gen.KernelIdeal.Skeleton
import proofs.«155115_j37623913513196_1_alg».proof.Proof.Gen.KernelIdeal.Frame
import Idealize.ShloMosaic.Lib.Pipeline.Value

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-! ## The two conditionals over the grid -/

/-- The first conditional (`i = 0`) holds exactly at the first tile of each batch: the points ≡ 0 (mod 16). -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second (`i > 0`) holds exactly at the other points. -/
theorem cond2_iff : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)
/-- One of the two holds at every point, so the second output's buffer is stored into at every point. -/
theorem live3 : ∀ i : grid0.Coords, idle0 3 i = false := by decide +kernel
theorem live3' : ∀ i : cfg0.grid.Coords, cfg0.idle 3 i = false := live3

/-! ## The body's triple, case by case -/

/-- The whole-buffer rectangle's offsets are zero. -/
theorem off3 : (![0, 0, 0] : Fin 3 → ℕ) = fun _ => 0 := funext fun a => by fin_cases a <;> rfl

/-- One store through the whole-buffer rectangle covers the row-minimum block. -/
theorem cover_rows (w : Vec F S1x256x1 .f32) (y : S1x256x1.Idx) :
    ∃ pc ∈ ([⟨Rect.unit (s := S1x256x1) ![0, 0, 0] S1x256x1.size inb_S1x256x1_S1x256x1_0_0_0, w⟩] : List (View.Piece (Elt F) S1x256x1 .f32)), y ∈ pc.1.set :=
  View.cover_of_tiled [⟨Rect.unit (s := S1x256x1) ![0, 0, 0] S1x256x1.size inb_S1x256x1_S1x256x1_0_0_0, w⟩] S1x256x1.size (by rfl) y

/-- One store through the whole-buffer rectangle covers the column-minimum block. -/
theorem cover_cols (w : Vec F S1x1x4096 .f32) (y : S1x1x4096.Idx) :
    ∃ pc ∈ ([⟨Rect.unit (s := S1x1x4096) ![0, 0, 0] S1x1x4096.size inb_S1x1x4096_S1x1x4096_0_0_0, w⟩] : List (View.Piece (Elt F) S1x1x4096 .f32)), y ∈ pc.1.set :=
  View.cover_of_tiled [⟨Rect.unit (s := S1x1x4096) ![0, 0, 0] S1x1x4096.size inb_S1x1x4096_S1x1x4096_0_0_0, w⟩] S1x1x4096.size (by rfl) y

/-- The body at a first tile (`i = 0`): from the input buffers at `x`, `y` and the outputs' at anything it leaves the
    row minima of the tile's distance matrix in the first output's buffer and the tile's column minima in the second's. -/
theorem run_first (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x256x1 .f32) (harg4 : arg4.IsWhole) (arg5 : Memref sig .tc .vmem S1x1x4096 .f32) (harg5 : arg5.IsWhole)
    (hc1 : k0_cond1 i = 1#1) (hc2 : ¬ k0_cond2 i = 1#1)
    (x : Vec F S1x256x3 .f32) (y : Vec F S1x4096x3 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ (iprop(owns (c : Thread nD τ) arg2 fullShare x ∗ owns (c : Thread nD τ) arg3 fullShare y
            ∗ owns (c : Thread nD τ) arg4 fullShare (k0_pay4 x y)
            ∗ owns (c : Thread nD τ) arg5 fullShare (k0_pay1 (k0_pay5 x y))) -∗ K ⟨⟩))
      ⊢ wp frame (wpE (defs₀ (F := F)) Variants.none c none) Set.univ (cc0__kernel i arg2 harg2 arg3 harg3 arg4 harg4 arg5 harg5) K := by
  simp only [cc0__kernel_eq_skeleton]; unfold cc0__kernel_skel
  unfold owns
  iintro ⟨⟨%f2, %hf2, H2⟩, ⟨%f3, %hf3, H3⟩, ⟨%d4, %f4, -, H4⟩, ⟨%d5, %f5, -, H5⟩, Hk⟩
  subst hf2 hf3
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_rows _), View.canon_unit_zero off3]
    simp only [View.readAt_eq_ld, View.ld_unit_zero (S := S1x256x3) off3, View.ld_unit_zero (S := S1x4096x3) off3]
  iexists _; isplitr
  swap; · iexact H5
  ipureintro
  rw [View.read_writes_eq_canon _ _ _ (cover_cols _), View.canon_unit_zero off3]
  sl_unfold_words
  simp only [View.readAt_eq_ld, View.ld_unit_zero (S := S1x256x3) off3, View.ld_unit_zero (S := S1x4096x3) off3]

/-- The body at a later tile (`i > 0`): the second output's buffer, found at `p`, is left at the lane-wise minimum of `p`
    and the tile's column minima. -/
theorem run_later (c : Dev nD) (i : grid0.Coords)
    (arg2 : Memref sig .tc .vmem S1x256x3 .f32) (harg2 : arg2.IsWhole) (arg3 : Memref sig .tc .vmem S1x4096x3 .f32) (harg3 : arg3.IsWhole)
    (arg4 : Memref sig .tc .vmem S1x256x1 .f32) (harg4 : arg4.IsWhole) (arg5 : Memref sig .tc .vmem S1x1x4096 .f32) (harg5 : arg5.IsWhole)
    (hc1 : ¬ k0_cond1 i = 1#1) (hc2 : k0_cond2 i = 1#1)
    (x : Vec F S1x256x3 .f32) (y : Vec F S1x4096x3 .f32) (p : Vec F S1x1x4096 .f32) (K : PUnit → sProp 𝕄) :
    iprop(owns (c : Thread nD τ) arg2 fullShare x ∗ owns (c : Thread nD τ) arg3 fullShare y
        ∗ (∃ d, owns (c : Thread nD τ) arg4 fullShare d) ∗ owns (c : Thread nD τ) arg5 fullShare p
        ∗ (iprop(owns (c : Thread nD τ) arg2 fullShare x ∗ owns (c : Thread nD τ) arg3 fullShare y
            ∗ owns (c : Thread nD τ) arg4 fullShare (k0_pay4 x y)
            ∗ owns (c : Thread nD τ) arg5 fullShare (k0_pay2 (k0_pay5 x y) p)) -∗ K ⟨⟩))
      ⊢ wp frame (wpE (defs₀ (F := F)) Variants.none c none) Set.univ (cc0__kernel i arg2 harg2 arg3 harg3 arg4 harg4 arg5 harg5) K := by
  simp only [cc0__kernel_eq_skeleton]; unfold cc0__kernel_skel
  unfold owns
  iintro ⟨⟨%f2, %hf2, H2⟩, ⟨%f3, %hf3, H3⟩, ⟨%d4, %f4, -, H4⟩, ⟨%f5, %hf5, H5⟩, Hk⟩
  subst hf2 hf3 hf5
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_rows _), View.canon_unit_zero off3]
    simp only [View.readAt_eq_ld, View.ld_unit_zero (S := S1x256x3) off3, View.ld_unit_zero (S := S1x4096x3) off3]
  iexists _; isplitr
  swap; · iexact H5
  ipureintro
  rw [View.read_writes_eq_canon _ _ _ (cover_cols _), View.canon_unit_zero off3]
  sl_unfold_words
  simp only [View.readAt_eq_ld, View.ld_unit_zero (S := S1x256x3) off3, View.ld_unit_zero (S := S1x4096x3) off3,
    View.ld_unit_zero (S := S1x1x4096) off3]

/-! ## What the second output's buffer holds, point by point -/

variable (m : (ℓ : Loc nD τ sig) → Buf (Elt F) ℓ) (ρ : Dev nD → PrngReg)

/-- The tile of `x` at point `t`, at its literal type. -/
abbrev xblk (c : Dev nD) (t : Fin cfg0.N) : Vec F S1x256x3 .f32 := iblk m c 0 t
/-- The batch of `y` at point `t`, at its literal type. -/
abbrev yblk (c : Dev nD) (t : Fin cfg0.N) : Vec F S1x4096x3 .f32 := iblk m c 1 t

/-- The second output's staging buffer after the point of linear index `n`: the tile's column minima at the first
    tile of a batch, and at a later tile their lane-wise minimum with what the point before left. -/
def colsAt (c : Dev nD) : (n : ℕ) → n < cfg0.N → Vec F S1x1x4096 .f32
  | 0, hn => k0_pay1 (k0_pay5 (xblk m c ⟨0, hn⟩) (yblk m c ⟨0, hn⟩))
  | n + 1, hn =>
    if (n + 1) % 16 = 0 then k0_pay1 (k0_pay5 (xblk m c ⟨n + 1, hn⟩) (yblk m c ⟨n + 1, hn⟩))
    else k0_pay2 (k0_pay5 (xblk m c ⟨n + 1, hn⟩) (yblk m c ⟨n + 1, hn⟩)) (colsAt c n (Nat.lt_of_succ_lt hn))

/-- At the first tile of a batch: the tile's column minima. -/
theorem colsAt_first (c : Dev nD) (t : Fin cfg0.N) (h0 : t.val % 16 = 0) :
    colsAt m c t.val t.isLt = k0_pay1 (k0_pay5 (xblk m c t) (yblk m c t)) := by
  obtain ⟨n, hn⟩ := t
  cases n with
  | zero => rfl
  | succ n => exact (if_pos h0).trans rfl

/-- At a later tile: the minimum with what the point before left. -/
theorem colsAt_later (c : Dev nD) (t : Fin cfg0.N) (h0 : ¬ t.val % 16 = 0) :
    colsAt m c t.val t.isLt
      = k0_pay2 (k0_pay5 (xblk m c t) (yblk m c t)) (colsAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t`
    each input's buffer at its block, the first output's at the tile's row minima, the second's at `colsAt`; the
    invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay4 (xblk m c t) (yblk m c t)
    | ⟨3, _⟩ => colsAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay4 (xblk m c t) (yblk m c t) := by dsimp only [dats]
theorem after0_3 (c : Dev nD) (t : Fin cfg0.N) : (dats m 0 c).after 3 t = colsAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile the second output's staging buffer holds what the body left at the point before: the point is not
    the first, the block was not written back between (it is written back only at the last tile of a batch), and the
    window is stored into at every point and never clipped. -/
theorem before0_3_later (c : Dev nD) (t : Fin cfg0.N) (h0 : ¬ t.val % 16 = 0) (d) :
    (dats m 0 c).before 3 t d = colsAt m c (t.val - 1) (Nat.lt_of_le_of_lt (Nat.sub_le _ _) t.isLt) := by
  have hN : t.val < 128 := lt_of_lt_of_eq t.isLt (show cfg0.N = 128 from N_0)
  rw [Dat.before_out_kept _ 3 rfl t (by omega)
    (Bool.eq_false_iff.mpr fun h => by have := (flush0_3 _).mp h; dsimp only at this; omega)
    live3' (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks; the point's index decides which of the two cases it
    is in; at a later tile the second output's buffer holds what the point before left; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 16 = 0
  · rw [colsAt_first m c t h0]
    iintro ⟨HΦ, Ho, ⟨%d0, H0⟩, ⟨%d1, H1⟩, ⟨%d2, H2⟩, ⟨%d3, H3⟩⟩
    iapply (run_first c (grid0.coords t) _ _ _ _ _ _ _ _ ((cond1_iff t).mpr h0) (fun h => (cond2_iff t).mp h h0)
      (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colsAt_later m c t h0]
    simp only [before0_3_later m c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((cond1_iff t).mp h)) ((cond2_iff t).mpr h0)
      (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point (its post asks, window by window, whether the window is idle at the
    point: the second output's is not, by `live3`). -/
theorem body_obligation (c : Dev nD) : BodyObligation (dats (F := F) m 0 c) (defs₀ (F := F)) Variants.none () Set.univ := fun t => by
  rw [bigSep_W0, bigSep_W0]
  rw [live3' (cfg0.grid.coords t)]
  exact sound_body m c t

/-! ## The run and the frame -/

set_option backward.isDefEq.respectTransparency.types false in
/-- From any memory with zero counters every weakly fair execution of the program terminates, and every final state
    has each array of the pipeline at what the write-backs of the proof data make of it and every other buffer as the
    host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.Spec.lean ====
/-
  The specification: for two clouds of 4096 points in ℝ³ per batch (8 batches), the squared distance between point n
  of the first cloud and point k of the second by the quadratic expansion |x|² + |y|² − 2 x·y, each point's
  distance to the nearest point of the other cloud (a minimum over a row or a column of the 4096 × 4096 matrix of
  squared distances, from +∞), and the law that lets a column's minimum be taken tile by tile: the rows cut into 16
  tiles of 256, each tile's minimum taken from +∞, and the tiles' minima folded by `min` one after the other, give
  the minimum over all 4096 rows. Nothing here needs the entries to be finite: only that `min` on the extended
  reals is associative, commutative and has the order's universal property.
-/
import Idealize.ShloMosaic.PureOps.Ideal
import Idealize.ShloMosaic.PureOps.Ideal.Laws
import Idealize.ShloMosaic.Lib.ValueIdx
import Mathlib.Data.Finset.Fold
import Mathlib.Order.Basic

noncomputable section

namespace Cert.Proof.Spec

open Idealize.ShloMosaic Idealize.ShloMosaic.ValueIdx

/-- A batch of point clouds: 8 batches of 4096 points of 3 coordinates. -/
abbrev Pts : Shape := ⟨3, ![8, 4096, 3]⟩

/-- The float literal 2.0, as the extended real it denotes. -/
def two : EReal := Ideal.ofBits .f32 0x40000000#32
/-- The float literal +∞, from which every minimum starts. -/
def inf32 : EReal := Ideal.ofBits .f32 0x7F800000#32

/-- The squared distance of point `n` of `X` and point `k` of `Y` in batch `b`, by the quadratic expansion. -/
def sqd (X Y : Pts.Idx → EReal) (b : Fin 8) (n k : Fin 4096) : EReal :=
  (∑ d : Fin 3, X (ix3 b n d) * X (ix3 b n d) + ∑ d : Fin 3, Y (ix3 b k d) * Y (ix3 b k d))
    - two * ∑ d : Fin 3, X (ix3 b n d) * Y (ix3 b k d)

/-- Point `n` of `X`: its squared distance to the nearest point of `Y`. -/
def rowMin (X Y : Pts.Idx → EReal) (b : Fin 8) (n : Fin 4096) : EReal :=
  (Finset.univ : Finset (Fin 4096)).fold min inf32 (fun k => sqd X Y b n k)

/-- Point `k` of `Y`: its squared distance to the nearest point of `X`. -/
def colMin (X Y : Pts.Idx → EReal) (b : Fin 8) (k : Fin 4096) : EReal :=
  (Finset.univ : Finset (Fin 4096)).fold min inf32 (fun n => sqd X Y b n k)

/-! ## A minimum over 4096 rows, taken 256 rows at a time -/

/-- Row `r` of tile `i`. -/
def tileRow (i : Fin 16) (r : Fin 256) : Fin 4096 := ⟨256 * i.val + r.val, by have := i.isLt; have := r.isLt; omega⟩

/-- The minimum of `g` over tile `i`, from +∞. -/
def tileMin (g : Fin 4096 → EReal) (i : Fin 16) : EReal :=
  (Finset.univ : Finset (Fin 256)).fold min inf32 (fun r => g (tileRow i r))

/-- The tiles' minima folded one after the other: tile 0's, then the minimum of what there is and the next tile's. -/
def accMin (g : Fin 4096 → EReal) : (j : ℕ) → j < 16 → EReal
  | 0, h => tileMin g ⟨0, h⟩
  | j + 1, h => min (accMin g j (Nat.lt_of_succ_lt h)) (tileMin g ⟨j + 1, h⟩)

/-- What lies below the running minimum after tile `j`: what lies below +∞ and below `g` on every row of the tiles
    up to `j`. -/
theorem le_accMin_iff (g : Fin 4096 → EReal) (c : EReal) : ∀ (j : ℕ) (h : j < 16),
    c ≤ accMin g j h ↔ c ≤ inf32 ∧ ∀ n : Fin 4096, n.val < 256 * (j + 1) → c ≤ g n
  | 0, h => by
    unfold accMin tileMin
    rw [Finset.le_fold_min]
    refine and_congr_right fun _ => ⟨fun H n hn => ?_, fun H r _ => H _ (by show 256 * 0 + r.val < _; have := r.isLt; omega)⟩
    have := H ⟨n.val, by omega⟩ (Finset.mem_univ _)
    have e : tileRow ⟨0, h⟩ ⟨n.val, by omega⟩ = n := Fin.ext (by show 256 * 0 + n.val = n.val; omega)
    rwa [e] at this
  | j + 1, h => by
    unfold accMin tileMin
    rw [le_min_iff, le_accMin_iff g c j (Nat.lt_of_succ_lt h), Finset.le_fold_min]
    constructor
    · rintro ⟨⟨h1, H1⟩, _, H2⟩
      refine ⟨h1, fun n hn => ?_⟩
      by_cases hlt : n.val < 256 * (j + 1)
      · exact H1 n hlt
      · have := H2 ⟨n.val - 256 * (j + 1), by omega⟩ (Finset.mem_univ _)
        have e : tileRow ⟨j + 1, h⟩ ⟨n.val - 256 * (j + 1), by omega⟩ = n :=
          Fin.ext (by show 256 * (j + 1) + (n.val - 256 * (j + 1)) = n.val; omega)
        rwa [e] at this
    · rintro ⟨h1, H⟩
      exact ⟨⟨h1, fun n hn => H n (by omega)⟩, h1, fun r _ => H _ (by show 256 * (j + 1) + r.val < _; have := r.isLt; omega)⟩

/-- After the last tile the running minimum is the minimum over all 4096 rows. -/
theorem accMin_last (g : Fin 4096 → EReal) : accMin g 15 (by decide) = (Finset.univ : Finset (Fin 4096)).fold min inf32 g :=
  eq_of_forall_le_iff fun c => by
    rw [le_accMin_iff, Finset.le_fold_min]
    exact and_congr_right fun _ => ⟨fun H n _ => H n (by have := n.isLt; omega), fun H n _ => H n (Finset.mem_univ _)⟩

end Cert.Proof.Spec

end
-- ==== Proof.KI.Payload.lean ====
/-
  The kernel body's pure values read at an index, at the ideal instance: the tile's matrix of squared distances, its
  row minima and column minima, and the two forms of the second output's block (the column minima themselves at a
  first tile, their minimum with what the buffer held at a later one).
-/
import proofs.«155115_j37623913513196_1_alg».proof.Proof.Gen.KernelIdeal.Skeleton
import proofs.«155115_j37623913513196_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KIPayload

open Cert.KernelIdeal Cert.KernelIdeal.Gen Cert.Proof.Spec
open Idealize.ShloMosaic Idealize.ShloMosaic.ValueIdx

/-! ## Layout and reduction operations read at an index given by coordinates

The forms the distance matrix needs beyond the leading-unit-axis casts and the row broadcast: a column broadcast over
many columns, a vector cast to a column, one column or one row cut out of a matrix, a sum over three columns, and a minimum
along either axis of a matrix. -/

section Layout
variable {α : Type}

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `d` of an `[a, n]` matrix, cut out as an `[a, 1]` column, reads the matrix at `(r, d)`. -/
theorem column_apply {a n : ℕ} (o : ℕ) (X : (⟨2, ![a, n]⟩ : Shape).Idx → α)
    (h : (⟨2, ![a, n]⟩ : Shape).Slices ![0, o] ⟨2, ![a, 1]⟩) (r : Fin a) (u : Fin 1) (d : Fin n) (hd : d.val = o) :
    extractStridedSlice ⟨2, ![a, 1]⟩ ![0, o] X h (ix2 r u) = X (ix2 r d) :=
  slice2_axis1_apply o X h r u d (by have := u.isLt; omega)

/-- Row `d` of an `[n, b]` matrix, cut out as a `[1, b]` row, reads the matrix at `(d, k)`. -/
theorem row_apply {n b : ℕ} (o : ℕ) (X : (⟨2, ![n, b]⟩ : Shape).Idx → α)
    (h : (⟨2, ![n, b]⟩ : Shape).Slices ![o, 0] ⟨2, ![1, b]⟩) (u : Fin 1) (k : Fin b) (d : Fin n) (hd : d.val = o) :
    extractStridedSlice ⟨2, ![1, b]⟩ ![o, 0] X h (ix2 u k) = X (ix2 d k) :=
  slice2_axis0_apply o X h u k d (by have := u.isLt; omega)

end Layout

/-- The sum along the three columns of an `[a, 3]` matrix, read at row `r`: the `Fin 3`-indexed sum of that row. -/
theorem rowsum3_apply {a : ℕ} (src : FVec Ideal ⟨2, ![a, 3]⟩ .f32) (h : (⟨2, ![a, 3]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ d : Fin 3, src (ix2 r d) := by
  refine (Ideal.multiReduction_add_single src 0x00000000#32 h hφ hacc (ix1 r)).trans ?_
  refine Finset.sum_congr rfl fun d _ => congrArg src ?_
  funext c
  match c with
  | ⟨0, _⟩ => rfl
  | ⟨1, _⟩ => rfl

/-- A minimum reduction over ONE axis, read at the ideal values: the fold of `min` from the accumulator's value over that
    axis's coordinates, the reduced index with the coordinate put back in. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The minimum along the columns of an `[a, b]` matrix, read at row `r`: the fold of `min` from +∞ over that row. -/
theorem rowmin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (r : Fin a) :
    multiReduction (F := Ideal) .minimumf [1] ⟨1, ![a]⟩ src 0x7F800000#32 h hφ hacc (ix1 r)
      = (Finset.univ : Finset (Fin b)).fold min inf32 (fun k => src (ix2 r k)) := by
  refine (multiReduction_minimumf_single src 0x7F800000#32 h hφ hacc (ix1 r)).trans ?_
  show (Finset.univ : Finset (Fin b)).fold min inf32 (fun k => src (h.lift (ix1 r) k)) = _
  refine congrArg (fun f => (Finset.univ : Finset (Fin b)).fold min inf32 f) (funext fun k => congrArg src ?_)
  funext c
  match c with
  | ⟨0, _⟩ => rfl
  | ⟨1, _⟩ => rfl

/-- The minimum along the rows of an `[a, b]` matrix, read at column `k`: the fold of `min` from +∞ over that column. -/
theorem colmin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (k : Fin b) :
    multiReduction (F := Ideal) .minimumf [0] ⟨1, ![b]⟩ src 0x7F800000#32 h hφ hacc (ix1 k)
      = (Finset.univ : Finset (Fin a)).fold min inf32 (fun r => src (ix2 r k)) := by
  refine (multiReduction_minimumf_single src 0x7F800000#32 h hφ hacc (ix1 k)).trans ?_
  show (Finset.univ : Finset (Fin a)).fold min inf32 (fun r => src (h.lift (ix1 k) r)) = _
  refine congrArg (fun f => (Finset.univ : Finset (Fin a)).fold min inf32 f) (funext fun r => congrArg src ?_)
  funext c
  match c with
  | ⟨0, _⟩ => rfl
  | ⟨1, _⟩ => rfl

/-! ## The five payloads -/

/-- Entry (r, k) of the tile's distance matrix: the quadratic expansion over the tile's row r and the batch's row k. -/
theorem dist_at (x : Vec Ideal S1x256x3 .f32) (y : Vec Ideal S1x4096x3 .f32) (r : Fin 256) (k : Fin 4096) :
    k0_pay3 (F := Ideal) x y (ix2 r k)
      = (∑ d : Fin 3, x (ix3 0 r d) * x (ix3 0 r d) + ∑ d : Fin 3, y (ix3 0 k d) * y (ix3 0 k d))
        - two * ∑ d : Fin 3, x (ix3 0 r d) * y (ix3 0 k d) := by
  unfold k0_pay3
  -- the pointwise operations, the broadcasts of a column and of a row, and the cuts of one column or one row
  simp only [subf_apply, addf_apply, mulf_apply, ValueIdx.broadcast_apply, broadcastTo_a1_ab_apply, broadcastTo_1b_ab_apply,
    column_apply 0 _ _ r _ (0 : Fin 3) rfl, column_apply 1 _ _ r _ (1 : Fin 3) rfl, column_apply 2 _ _ r _ (2 : Fin 3) rfl,
    row_apply 0 _ _ _ k (0 : Fin 3) rfl, row_apply 1 _ _ _ k (1 : Fin 3) rfl, row_apply 2 _ _ _ k (2 : Fin 3) rfl,
    shapeCast_a_a1_apply, shapeCast_1ab_ab_apply]
  -- the four transposes: three rows of the transposed batch, and the row of squared norms
  rw [transpose_ix2_apply, transpose_ix2_apply, transpose_ix2_apply, transpose_ix2_apply]
  simp only [shapeCast_a_a1_apply, shapeCast_1ab_ab_apply]
  -- the two squared norms as sums over the three coordinates
  rw [rowsum3_apply, rowsum3_apply]
  simp only [mulf_apply, shapeCast_1ab_ab_apply]
  -- the inner product, written out as the kernel associates it
  rw [Fin.sum_univ_three (fun d => x (ix3 0 r d) * y (ix3 0 k d))]
  rfl

/-- Row r's minimum over the 4096 columns, from +∞. -/
theorem rowmin_at (x : Vec Ideal S1x256x3 .f32) (y : Vec Ideal S1x4096x3 .f32) (r : Fin 256) :
    k0_pay4 (F := Ideal) x y (ix3 0 r 0)
      = (Finset.univ : Finset (Fin 4096)).fold min inf32 (fun k => k0_pay3 (F := Ideal) x y (ix2 r k)) := by
  unfold k0_pay4
  -- the two unit axes put around the vector of row minima are read through
  refine (shapeCast_ab_1ab_apply _ _ 0 r 0).trans ?_
  refine (shapeCast_a_a1_apply _ _ r 0).trans ?_
  exact rowmin_apply (k0_pay3 (F := Ideal) x y) _ _ _ r

/-- Column k's minimum over the tile's 256 rows, from +∞. -/
theorem colmin_at (x : Vec Ideal S1x256x3 .f32) (y : Vec Ideal S1x4096x3 .f32) (k : Fin 4096) :
    k0_pay5 (F := Ideal) x y (ix2 0 k)
      = (Finset.univ : Finset (Fin 256)).fold min inf32 (fun r => k0_pay3 (F := Ideal) x y (ix2 r k)) := by
  unfold k0_pay5
  -- the unit axis put in front of the vector of column minima is read through
  refine (shapeCast_a_1a_apply _ _ 0 k).trans ?_
  exact colmin_apply (k0_pay3 (F := Ideal) x y) _ _ _ k

/-- At a first tile the block is the column minima, re-laid with a unit axis in front. -/
theorem first_at (v : FVec Ideal S1x4096 .f32) (k : Fin 4096) : k0_pay1 (F := Ideal) v (ix3 0 0 k) = v (ix2 0 k) := by
  unfold k0_pay1
  exact shapeCast_ab_1ab_apply v _ 0 0 k

/-- At a later tile it is, lane by lane, the minimum of what the buffer held and the column minima. -/
theorem later_at (v : FVec Ideal S1x4096 .f32) (p : Vec Ideal S1x1x4096 .f32) (k : Fin 4096) :
    k0_pay2 (F := Ideal) v p (ix3 0 0 k) = min (p (ix3 0 0 k)) (v (ix2 0 k)) := by
  unfold k0_pay2
  -- the unit axis in front is read through, then the lane-wise minimum, then the buffer's block without its unit axis
  refine (shapeCast_ab_1ab_apply _ _ 0 0 k).trans ?_
  rw [minimumf_apply]
  rw [shapeCast_1ab_ab_apply]

end Cert.Proof.KIPayload

end
-- ==== Proof.KI.Blocks.lean ====
/-
  The input windows' blocks read at an index: the tile of `x` at the point of linear index t is rows
  256 (t mod 16) … of batch t / 16, and the block of `y` is all of batch t / 16.
-/
import proofs.«155115_j37623913513196_1_alg».proof.Proof.Gen.KernelIdeal.Frame
import Idealize.ShloMosaic.Lib.ValueIdx
import Idealize.ShloMosaic.Lib.Pipeline.Value

set_option maxRecDepth 16384

noncomputable section

namespace Cert.Proof.KIBlocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The first argument array as the region finds it, at its literal type. -/
abbrev Xarr (c : Dev nD) : Vec F S8x4096x3 .f32 := V m c main_arg0
/-- The second argument array as the region finds it, at its literal type. -/
abbrev Yarr (c : Dev nD) : Vec F S8x4096x3 .f32 := V m c main_arg1

/-- The batch of a point. -/
def batchOf (t : Fin cfg0.N) : Fin 8 := ⟨t.val / 16, by have := lt_of_lt_of_eq t.isLt (show cfg0.N = 128 from N_0); omega⟩
/-- The tile of a point. -/
def tileOf (t : Fin cfg0.N) : Fin 16 := ⟨t.val % 16, Nat.mod_lt _ (by decide)⟩
/-- Row r of tile i, as a row of the whole array. -/
def rowOf (i : Fin 16) (r : Fin 256) : Fin 4096 := ⟨256 * i.val + r.val, by have := i.isLt; have := r.isLt; omega⟩

/-- The block index of the first input at the point of linear index t: batch t / 16, tile t mod 16, and the
    whole of the last axis. Decided once over the 128 points. -/
theorem xidx : ∀ t : Fin cfg0.N, win0_0.index t (0 : Fin 3) = t.val / 16
    ∧ win0_0.index t (1 : Fin 3) = t.val % 16 ∧ win0_0.index t (2 : Fin 3) = 0 :=
  (by decide +kernel : ∀ t : Fin grid0.N, _)

/-- The block index of the second input at the point of linear index t: batch t / 16, and the whole of the
    two other axes. Decided once over the 128 points. -/
theorem yidx : ∀ t : Fin cfg0.N, win0_1.index t (0 : Fin 3) = t.val / 16
    ∧ win0_1.index t (1 : Fin 3) = 0 ∧ win0_1.index t (2 : Fin 3) = 0 :=
  (by decide +kernel : ∀ t : Fin grid0.N, _)

/- Reading a block is reading the array at the embedded index, and on each axis the embedded coordinate is
   (block index) * (block extent) + (coordinate inside the block). With extents 1, 256, 3 and block index
   (t / 16, t mod 16, 0) that is (t / 16, 256 (t mod 16) + r, d). -/
theorem xblk_at (c : Dev nD) (t : Fin cfg0.N) (r : Fin 256) (d : Fin 3) :
    (iblk m c 0 t : Vec F S1x256x3 .f32) (ix3 0 r d) = Xarr m c (ix3 (batchOf t) (rowOf (tileOf t) r) d) := by
  obtain ⟨e0, e1, e2⟩ := xidx t
  show V m c main_arg0 (((cfg0.win 0).blk t).view.emb (ix3 0 r d))
    = V m c main_arg0 (ix3 (batchOf t) (rowOf (tileOf t) r) d)
  refine congrArg (V m c main_arg0) ?_
  funext a; apply Fin.ext
  match a with
  | ⟨0, _⟩ =>
    show win0_0.index t (0 : Fin 3) * 1 + 1 * 0 = t.val / 16
    omega
  | ⟨1, _⟩ =>
    show win0_0.index t (1 : Fin 3) * 256 + 1 * r.val = 256 * (t.val % 16) + r.val
    omega
  | ⟨2, _⟩ =>
    show win0_0.index t (2 : Fin 3) * 3 + 1 * d.val = d.val
    omega

/- The same with extents 1, 4096, 3 and block index (t / 16, 0, 0): the embedded index is (t / 16, k, d). -/
theorem yblk_at (c : Dev nD) (t : Fin cfg0.N) (k : Fin 4096) (d : Fin 3) :
    (iblk m c 1 t : Vec F S1x4096x3 .f32) (ix3 0 k d) = Yarr m c (ix3 (batchOf t) k d) := by
  obtain ⟨e0, e1, e2⟩ := yidx t
  show V m c main_arg1 (((cfg0.win 1).blk t).view.emb (ix3 0 k d)) = V m c main_arg1 (ix3 (batchOf t) k d)
  refine congrArg (V m c main_arg1) ?_
  funext a; apply Fin.ext
  match a with
  | ⟨0, _⟩ =>
    show win0_1.index t (0 : Fin 3) * 1 + 1 * 0 = t.val / 16
    omega
  | ⟨1, _⟩ =>
    show win0_1.index t (1 : Fin 3) * 4096 + 1 * k.val = k.val
    omega
  | ⟨2, _⟩ =>
    show win0_1.index t (2 : Fin 3) * 3 + 1 * d.val = d.val
    omega

end Cert.Proof.KIBlocks

end
-- ==== Proof.KI.Rows.lean ====
/-
  The first output array after the run, at the ideal instance: every point writes its block back, the blocks tile the
  array, and block (b, i) holds the row minima of tile i of batch b; so entry (b, n, 0) is the minimum over all 4096
  columns of the squared distances from point n of the first cloud.
-/
import proofs.«155115_j37623913513196_1_alg».proof.Proof.KI.Body
import proofs.«155115_j37623913513196_1_alg».proof.Proof.KI.Payload
import proofs.«155115_j37623913513196_1_alg».proof.Proof.KI.Blocks
import proofs.«155115_j37623913513196_1_alg».proof.Proof.Spec

set_option maxRecDepth 16384

noncomputable section

namespace Cert.Proof.KIRows

open Cert.KernelIdeal Cert.KernelIdeal.Gen Cert.Proof.Spec Cert.Proof.KI Cert.Proof.KIBlocks
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## One tile's row minima, over any tile and any batch

  Stated for a tile `x` and a batch `y` that are known only through where their rows sit in two clouds `X`, `Y`:
  row r of `x` is row `n r` of batch b of `X`, and row k of `y` is row k of batch b of `Y`. -/

/-- Row r of the tile: the minimum over the batch's 4096 rows of the squared distance, from +∞, is the row minimum of
    point `n r` of batch b. Each entry of the distance matrix is the quadratic expansion over the tile's row and the
    batch's row; reading both rows in the clouds turns it into the squared distance of the specification, term by
    term, and the minimum is taken over the same index set from the same start. -/
theorem rowmin_of_blocks (x : Vec Ideal S1x256x3 .f32) (y : Vec Ideal S1x4096x3 .f32) (X Y : Pts.Idx → EReal)
    (b : Fin 8) (n : Fin 256 → Fin 4096)
    (hx : ∀ r d, x (ix3 0 r d) = X (ix3 b (n r) d)) (hy : ∀ k d, y (ix3 0 k d) = Y (ix3 b k d)) (r : Fin 256) :
    k0_pay4 (F := Ideal) x y (ix3 0 r 0) = rowMin X Y b (n r) := by
  rw [Cert.Proof.KIPayload.rowmin_at]
  unfold rowMin sqd
  refine congrArg (fun f => Finset.fold min inf32 f Finset.univ) (funext fun k => ?_)
  rw [Cert.Proof.KIPayload.dist_at]
  simp only [hx, hy]

/-- The same at any index of the [1, 256, 1] block: its outer coordinates can only be 0, the middle one is the row. -/
theorem rowmin_of_blocks_idx (x : Vec Ideal S1x256x3 .f32) (y : Vec Ideal S1x4096x3 .f32) (X Y : Pts.Idx → EReal)
    (b : Fin 8) (n : Fin 256 → Fin 4096)
    (hx : ∀ r d, x (ix3 0 r d) = X (ix3 b (n r) d)) (hy : ∀ k d, y (ix3 0 k d) = Y (ix3 b k d)) (j : S1x256x1.Idx) :
    k0_pay4 (F := Ideal) x y j = rowMin X Y b (n (j 1)) := by
  obtain ⟨p, r, q, rfl⟩ : ∃ (p : Fin 1) (r : Fin 256) (q : Fin 1), j = ix3 p r q := ⟨j 0, j 1, j 2, eq_ix3 j⟩
  obtain rfl : p = 0 := Subsingleton.elim _ _
  obtain rfl : q = 0 := Subsingleton.elim _ _
  exact rowmin_of_blocks x y X Y b n hx hy r

/-! ## Where a point's block sits in the array -/

/-- The block index of the first output at the point of linear index t is (t / 16, t mod 16, 0): the batch, the tile,
    and nothing on the unit axis. Checked point by point over the 128 points. -/
theorem idx_rows : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, _)

/-- What the point of index t writes back is its block of the array of all row minima. The block is not cut (it lies
    inside the array), so what is written is what the body left: the tile's row minima. An element (0, r, 0) of the
    block sits in the array at (t / 16, 256 (t mod 16) + r, 0) (block index times block size plus the coordinate
    inside), and the tile's row r is row 256 (t mod 16) + r of batch t / 16 of the first cloud, the batch being batch
    t / 16 of the second: the two sides are the same row minimum. -/
theorem flushed_rows (c : Dev nD) (t : Fin cfg0.N) :
    (dats (F := Ideal) m 0 c).flushed 2 t
      = ((cfg0.win 2).blk t).view.read (Elt Ideal) (fun i => rowMin (Xarr m c) (Yarr m c) (i 0) (i 1)) := by
  show (cfg0.win 2).cut (grid0.coords t) ((dats m 0 c).after 2 t) = _
  rw [after0_2]
  funext j
  refine (rowmin_of_blocks_idx (xblk m c t) (yblk m c t) (Xarr m c) (Yarr m c) (batchOf t) (rowOf (tileOf t))
    (fun r d => xblk_at m c t r d) (fun k d => yblk_at m c t k d) _).trans ?_
  obtain ⟨e0, e1, e2⟩ := idx_rows t
  have h0 : ((((cfg0.win 2).blk t).view.emb j) 0 : Fin 8) = batchOf t := Fin.ext (by
    show win0_2.index t (0 : Fin 3) * 1 + 1 * (j 0).val = t.val / 16
    have : (j 0).val < 1 := (j 0).isLt
    omega)
  have h1 : ((((cfg0.win 2).blk t).view.emb j) 1 : Fin 4096)
      = rowOf (tileOf t) ((cfg0.win 2).xinj (grid0.coords t) j 1) := Fin.ext (by
    show win0_2.index t (1 : Fin 3) * 256 + 1 * (j 1).val = 256 * (t.val % 16) + (j 1).val
    omega)
  exact (congrArg₂ (rowMin (Xarr m c) (Yarr m c)) h0 h1).symm

/-! ## The blocks tile the array -/

/-- An index of the array lies in the block of point t exactly when each coordinate lies in the block's range on its
    axis: from block index times block size, for the block's size. -/
theorem mem_blk_rows (t : Fin cfg0.N) (i : S8x4096x1.Idx) :
    i ∈ ((cfg0.win 2).blk t).view.set
      ↔ ∀ a : Fin 3, win0_2.index t a * S1x256x1.size a ≤ (i a).val
          ∧ (i a).val < win0_2.index t a * S1x256x1.size a + S1x256x1.size a := by
  show i ∈ ((View.whole main_v0_0).slice (win0_2.rect t)).set ↔ _
  rw [View.set_slice_whole, Rect.mem_set_unit]
  exact Iff.rfl

/-- Every index (b, n, 0) of the array lies in the block of a point that writes back: the point 16 b + n / 256, whose
    block holds batch b, rows 256 (n / 256) … 256 (n / 256) + 255. -/
theorem cover_rows_array (i : S8x4096x1.Idx) :
    ∃ t : Fin cfg0.N, (cfg0.win 2).flush t = true ∧ i ∈ ((cfg0.win 2).blk t).view.set := by
  have hb : (i 0).val < 8 := (i 0).isLt
  have hn : (i 1).val < 4096 := (i 1).isLt
  have hz : (i 2).val < 1 := (i 2).isLt
  have hN : cfg0.N = 128 := N_0
  let t : Fin cfg0.N := ⟨16 * (i 0).val + (i 1).val / 256, by omega⟩
  have ht : t.val = 16 * (i 0).val + (i 1).val / 256 := rfl
  obtain ⟨e0, e1, e2⟩ := idx_rows t
  refine ⟨t, flush0_2 t, ?_⟩
  rw [mem_blk_rows]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 1 ≤ (i 2).val ∧ (i 2).val < win0_2.index t (2 : Fin 3) * 1 + 1
    omega

/-! ## The array after the run -/

/-- The whole first output array after the run: at (b, n, ·) the row minimum of point n of batch b. Every point
    writes its block of this one array-wide function, and the blocks cover the array, so whichever point wrote an
    entry last wrote this value. -/
theorem rows_array (c : Dev nD) :
    (dats (F := Ideal) m 0 c).arrAt 2 cfg0.N = (fun i => rowMin (Xarr m c) (Yarr m c) (i 0) (i 1)) :=
  (dats m 0 c).arrAt_eq_of_cover 2 _ (fun t _ => flushed_rows m c t) cover_rows_array

/-- Entry (b, n, 0) of the first output array after the run: point n's squared distance to the nearest point of the
    other cloud. -/
theorem rows_final (c : Dev nD) (b : Fin 8) (n : Fin 4096) :
    (dats (F := Ideal) m 0 c).arrAt 2 cfg0.N (ix3 b n 0) = rowMin (Xarr m c) (Yarr m c) b n := by
  exact congrFun (rows_array m c) (ix3 b n 0)

end Cert.Proof.KIRows

end
-- ==== Proof.KI.Cols.lean ====
/-
  The second output array after the run, at the ideal instance. Its block (b, 0, 0) is carried in the staging buffer
  through the 16 tiles of batch b and written back after the last: after tile j it holds, lane k, the minimum over the
  rows of tiles 0 … j of the squared distances to point k of the second cloud (by induction on j, the running minimum
  of the specification); after tile 15 that is the minimum over all 4096 rows.
-/
import proofs.«155115_j37623913513196_1_alg».proof.Proof.KI.Body
import proofs.«155115_j37623913513196_1_alg».proof.Proof.KI.Payload
import proofs.«155115_j37623913513196_1_alg».proof.Proof.KI.Blocks
import proofs.«155115_j37623913513196_1_alg».proof.Proof.Spec

set_option maxRecDepth 16384

noncomputable section

namespace Cert.Proof.KICols

open Cert.KernelIdeal Cert.KernelIdeal.Gen Cert.Proof.Spec Cert.Proof.KI Cert.Proof.KIBlocks
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The column minima of the tile of point t, lane k: the minimum of column k over the rows of that tile. -/
theorem tilecol_at (c : Dev nD) (t : Fin cfg0.N) (k : Fin 4096) :
    k0_pay5 (F := Ideal) (xblk m c t) (yblk m c t) (ix2 0 k)
      = tileMin (fun n => sqd (Xarr m c) (Yarr m c) (batchOf t) n k) (tileOf t) := by
  refine (Cert.Proof.KIPayload.colmin_at (xblk m c t) (yblk m c t) k).trans ?_
  unfold tileMin
  refine Finset.fold_congr (fun r _ => ?_)
  refine (Cert.Proof.KIPayload.dist_at (xblk m c t) (yblk m c t) r k).trans ?_
  have hx : ∀ d : Fin 3, (xblk m c t) (ix3 0 r d) = Xarr m c (ix3 (batchOf t) (tileRow (tileOf t) r) d) :=
    fun d => xblk_at m c t r d
  have hy : ∀ d : Fin 3, (yblk m c t) (ix3 0 k d) = Yarr m c (ix3 (batchOf t) k d) := fun d => yblk_at m c t k d
  unfold sqd
  simp only [hx, hy]

/-- The carried block after the point t = 16 b + j, lane k, is the running minimum after tile j: by induction on j,
    the point's batch being b and its tile j. -/
theorem colsAt_pt (c : Dev nD) (b : Fin 8) (k : Fin 4096) : ∀ (j : ℕ) (hj : j < 16) (t : Fin cfg0.N),
    t.val = 16 * b.val + j →
    colsAt (F := Ideal) m c t.val t.isLt (ix3 0 0 k) = accMin (fun n => sqd (Xarr m c) (Yarr m c) b n k) j hj
  | 0, hj, t, ht => by
    have h0 : t.val % 16 = 0 := by omega
    have hb : batchOf t = b := Fin.ext (by show t.val / 16 = b.val; omega)
    have hi : tileOf t = ⟨0, hj⟩ := Fin.ext (by show t.val % 16 = 0; omega)
    rw [colsAt_first m c t h0]
    refine (Cert.Proof.KIPayload.first_at (k0_pay5 (F := Ideal) (xblk m c t) (yblk m c t)) k).trans ?_
    rw [tilecol_at m c t k, hb, hi]
    rfl
  | j + 1, hj, t, ht => by
    have hN : t.val < 128 := lt_of_lt_of_eq t.isLt (show cfg0.N = 128 from N_0)
    have h0 : ¬ t.val % 16 = 0 := by omega
    have hb : batchOf t = b := Fin.ext (by show t.val / 16 = b.val; omega)
    have hi : tileOf t = ⟨j + 1, hj⟩ := Fin.ext (by show t.val % 16 = j + 1; omega)
    rw [colsAt_later m c t h0]
    refine (Cert.Proof.KIPayload.later_at (k0_pay5 (F := Ideal) (xblk m c t) (yblk m c t))
      (colsAt (F := Ideal) m c (t.val - 1) (Nat.lt_of_le_of_lt (Nat.sub_le _ _) t.isLt)) k).trans ?_
    rw [tilecol_at m c t k, hb, hi]
    have ih := colsAt_pt c b k j (Nat.lt_of_succ_lt hj) ⟨t.val - 1, Nat.lt_of_le_of_lt (Nat.sub_le _ _) t.isLt⟩
      (by show t.val - 1 = 16 * b.val + j; omega)
    rw [show colsAt (F := Ideal) m c (t.val - 1) (Nat.lt_of_le_of_lt (Nat.sub_le _ _) t.isLt) (ix3 0 0 k)
      = accMin (fun n => sqd (Xarr m c) (Yarr m c) b n k) j (Nat.lt_of_succ_lt hj) from ih]
    rfl

/-- Lane k of the carried block after tile j of batch b: the running minimum of column k over tiles 0 … j. -/
theorem colsAt_at (c : Dev nD) (b : Fin 8) (j : ℕ) (hj : j < 16) (k : Fin 4096) :
    colsAt (F := Ideal) m c (16 * b.val + j) (by have := b.isLt; show 16 * b.val + j < 128; omega) (ix3 0 0 k)
      = accMin (fun n => sqd (Xarr m c) (Yarr m c) b n k) j hj :=
  colsAt_pt m c b k j hj ⟨16 * b.val + j, by have := b.isLt; show 16 * b.val + j < 128; omega⟩ rfl

/-- The second output's block index at a point: the point's batch on the first axis, zero on the two others. -/
theorem idx3_facts : ∀ t : Fin cfg0.N, win0_3.index t (0 : Fin 3) = t.val / 16
    ∧ win0_3.index t (1 : Fin 3) = 0 ∧ win0_3.index t (2 : Fin 3) = 0 :=
  (by decide +kernel : ∀ t : Fin grid0.N, win0_3.index t (0 : Fin 3) = t.val / 16
    ∧ win0_3.index t (1 : Fin 3) = 0 ∧ win0_3.index t (2 : Fin 3) = 0)

/-- What the second output array holds in the end: entry (b, 0, k) is point k's distance to the nearest point. -/
abbrev colG (c : Dev nD) : S8x1x4096.Idx → EReal := fun i => colMin (Xarr m c) (Yarr m c) (i 0) (i 2)

/-- What a point that writes the second output's block back writes: it is the last tile of its batch, so by then the
    carried block holds the running minimum after tile 15, the minimum over all 4096 rows; and the block sits in
    the array at the batch's row. -/
theorem flushed3_eq (c : Dev nD) (t : Fin cfg0.N) (hf : (cfg0.win 3).flush t = true) :
    (dats (F := Ideal) m 0 c).flushed 3 t = ((cfg0.win 3).blk t).view.read (Elt Ideal) (colG m c) := by
  have hN : t.val < 128 := lt_of_lt_of_eq t.isLt (show cfg0.N = 128 from N_0)
  have h15 : t.val % 16 = 15 := (flush0_3 t).mp hf
  show (cfg0.win 3).cut (grid0.coords t) ((dats (F := Ideal) m 0 c).after 3 t) = _
  rw [after0_3]
  funext y
  revert y
  show ∀ y : S1x1x4096.Idx, colsAt (F := Ideal) m c t.val t.isLt y = colG m c (((cfg0.win 3).blk t).view.emb y)
  intro y
  obtain ⟨p, q, l, rfl⟩ : ∃ (p : Fin 1) (q : Fin 1) (l : Fin 4096), y = ix3 p q l := ⟨y 0, y 1, y 2, eq_ix3 y⟩
  obtain rfl : p = 0 := Subsingleton.elim _ _
  obtain rfl : q = 0 := Subsingleton.elim _ _
  have hb : t.val / 16 < 8 := by omega
  refine (colsAt_pt m c ⟨t.val / 16, hb⟩ l 15 (by decide) t (by show t.val = 16 * (t.val / 16) + 15; omega)).trans ?_
  rw [accMin_last]
  show colMin (Xarr m c) (Yarr m c) ⟨t.val / 16, hb⟩ l
    = colMin (Xarr m c) (Yarr m c) ((((cfg0.win 3).blk t).view.emb (ix3 0 0 l)) 0) ((((cfg0.win 3).blk t).view.emb (ix3 0 0 l)) 2)
  obtain ⟨e0, e1, e2⟩ := idx3_facts t
  congr 1
  · apply Fin.ext; show t.val / 16 = win0_3.index t (0 : Fin 3) * 1 + 1 * 0; omega
  · apply Fin.ext; show l.val = win0_3.index t (2 : Fin 3) * 4096 + 1 * l.val; omega

/-- An index of the second output array lies in the block of point t exactly when each coordinate lies in the
    block's range on its axis. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every entry of the second output array lies in a block that is written back: entry (b, ·, ·) in the block of
    the last tile of batch b. -/
theorem cover3 (i : S8x1x4096.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : 16 * (i 0).val + 15 < cfg0.N := by rw [show cfg0.N = 128 from N_0]; omega
  refine ⟨⟨16 * (i 0).val + 15, hN⟩, (flush0_3 _).mpr (by show (16 * (i 0).val + 15) % 16 = 15; omega), ?_⟩
  rw [mem_blk3]
  obtain ⟨e0, e1, e2⟩ := idx3_facts ⟨16 * (i 0).val + 15, hN⟩
  have e0' : win0_3.index ⟨16 * (i 0).val + 15, hN⟩ (0 : Fin 3) = (i 0).val := by
    rw [e0]; show (16 * (i 0).val + 15) / 16 = (i 0).val; omega
  intro a
  match a with
  | ⟨0, _⟩ =>
    show win0_3.index ⟨16 * (i 0).val + 15, hN⟩ (0 : Fin 3) * 1 ≤ (i 0).val
      ∧ (i 0).val < win0_3.index ⟨16 * (i 0).val + 15, hN⟩ (0 : Fin 3) * 1 + 1
    omega
  | ⟨1, _⟩ =>
    show win0_3.index ⟨16 * (i 0).val + 15, hN⟩ (1 : Fin 3) * 1 ≤ (i 1).val
      ∧ (i 1).val < win0_3.index ⟨16 * (i 0).val + 15, hN⟩ (1 : Fin 3) * 1 + 1
    omega
  | ⟨2, _⟩ =>
    show win0_3.index ⟨16 * (i 0).val + 15, hN⟩ (2 : Fin 3) * 4096 ≤ (i 2).val
      ∧ (i 2).val < win0_3.index ⟨16 * (i 0).val + 15, hN⟩ (2 : Fin 3) * 4096 + 4096
    omega

/-- Entry (b, 0, k) of the second output array after the run: point k's squared distance to the nearest point of the
    other cloud. -/
theorem cols_final (c : Dev nD) (b : Fin 8) (k : Fin 4096) :
    (dats (F := Ideal) m 0 c).arrAt 3 cfg0.N (ix3 b 0 k) = colMin (Xarr m c) (Yarr m c) b k :=
  congrFun ((dats (F := Ideal) m 0 c).arrAt_eq_of_cover 3 (colG m c) (flushed3_eq m c) cover3) (ix3 b 0 k)

end Cert.Proof.KICols

end
-- ==== Proof.KI.Tail.lean ====
/-
  The host operations after the region: both outputs are re-laid as 8 × 4096 arrays, each is summed from zero and
  divided by 32768, and the two means are added. Stated over any two 8 × 4096 arrays that the outputs re-lay to.
-/
import proofs.«155115_j37623913513196_1_alg».proof.Proof.KI.Body
import Idealize.ShloMosaic.Lib.ValueIdx
import Idealize.ShloMosaic.Lib.StableHlo.Run

set_option maxRecDepth 16384

noncomputable section

namespace Cert.Proof.KITail

open Cert.KernelIdeal Cert.KernelIdeal.Gen Cert.Proof.KI
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ)

/-- The sum of the two means: each array summed from zero, divided by 32768, the quotients added. -/
def meanSum (d1 d2 : FVec F S8x4096 .f32) : FVec F S_ .f32 :=
  addf (Host.divf (Host.reduceAdd d1 (constant (F := F) S_ .f32 0x00000000#32) reducesTo_S8x4096_S_d0_1 h_S_) (constant (F := F) S_ .f32 0x47000000#32))
    (Host.divf (Host.reduceAdd d2 (constant (F := F) S_ .f32 0x00000000#32) reducesTo_S8x4096_S_d0_1 h_S_) (constant (F := F) S_ .f32 0x47000000#32))

/-- An 8 × 4096 × 1 array re-laid as 8 × 4096 holds at (b, n) what the array holds at (b, n, 0): both entries stand at
    row-major position 4096 b + n. -/
theorem relay_last {α : Type} (x : S8x4096x1.Idx → α) (h : S8x4096x1.ShapeCasts S8x4096) (b : Fin 8) (n : Fin 4096) :
    shapeCast S8x4096 x h (ix2 b n) = x (ix3 b n 0) :=
  shapeCast_apply x h _ _ (by
    rw [Shape.rowMajor_val_three, Shape.rowMajor_val_two]
    show (b.val * 4096 + n.val) * 1 + 0 = b.val * 4096 + n.val
    omega)

/-- An 8 × 1 × 4096 array re-laid as 8 × 4096 holds at (b, k) what the array holds at (b, 0, k): both entries stand at
    row-major position 4096 b + k. -/
theorem relay_mid {α : Type} (x : S8x1x4096.Idx → α) (h : S8x1x4096.ShapeCasts S8x4096) (b : Fin 8) (k : Fin 4096) :
    shapeCast S8x4096 x h (ix2 b k) = x (ix3 b 0 k) :=
  shapeCast_apply x h _ _ (by
    rw [Shape.rowMajor_val_three, Shape.rowMajor_val_two]
    show (b.val * 1 + 0) * 4096 + k.val = b.val * 4096 + k.val
    omega)

/-- The program's result after the host tail, from what the two output arrays hold after the region. -/
theorem tail_v7 (c : Dev nD) (D1 D2 : FVec F S8x4096 .f32)
    (h1 : ∀ (b : Fin 8) (n : Fin 4096), (dats m 0 c).arrAt 2 cfg0.N (ix3 b n 0) = D1 (ix2 b n))
    (h2 : ∀ (b : Fin 8) (k : Fin 4096), (dats m 0 c).arrAt 3 cfg0.N (ix3 b 0 k) = D2 (ix2 b k)) :
    Pipeline.afterTail₀ cfgs (dats m) 0 (V0 m) [hostOps1] c main_v7 = meanSum D1 D2 := by
  -- after the region the two output arrays hold what the region left in them
  have a2 : Pipeline.withArrays (cfgs 0).spec c (V0 m c) (fun w => (dats m 0 c).arrAt w (cfgs 0).N)
      (Proc.devRef .tc main_v0_0) = (dats m 0 c).arrAt 2 cfg0.N :=
    Pipeline.withArrays_arr spec0 launch0.win.arr_inj c _ _ 2
  have a3 : Pipeline.withArrays (cfgs 0).spec c (V0 m c) (fun w => (dats m 0 c).arrAt w (cfgs 0).N)
      (Proc.devRef .tc main_v0_1) = (dats m 0 c).arrAt 3 cfg0.N :=
    Pipeline.withArrays_arr spec0 launch0.win.arr_inj c _ _ 3
  unfold Pipeline.afterTail₀
  show StableHlo.after hostOps1 _ (Proc.devRef .tc main_v7) = _
  after_results
  unfold meanSum
  refine congrArg₂ addf ?_ ?_
  · -- the first output, re-laid, is D1
    refine congrArg (fun x : FVec F S8x4096 .f32 => Host.divf (Host.reduceAdd x (constant (F := F) S_ .f32 0x00000000#32)
      reducesTo_S8x4096_S_d0_1 h_S_) (constant (F := F) S_ .f32 0x47000000#32)) ?_
    funext j
    obtain ⟨b, n, rfl⟩ : ∃ (b : Fin 8) (n : Fin 4096), j = ix2 b n := ⟨j 0, j 1, eq_ix2 j⟩
    rw [a2]
    exact (relay_last _ shapeCasts_S8x4096x1_S8x4096 b n).trans (h1 b n)
  · -- the second output, re-laid, is D2
    refine congrArg (fun x : FVec F S8x4096 .f32 => Host.divf (Host.reduceAdd x (constant (F := F) S_ .f32 0x00000000#32)
      reducesTo_S8x4096_S_d0_1 h_S_) (constant (F := F) S_ .f32 0x47000000#32)) ?_
    funext j
    obtain ⟨b, k, rfl⟩ : ∃ (b : Fin 8) (k : Fin 4096), j = ix2 b k := ⟨j 0, j 1, eq_ix2 j⟩
    rw [a3]
    exact (relay_mid _ shapeCasts_S8x1x4096_S8x4096 b k).trans (h2 b k)

end Cert.Proof.KITail

end
-- ==== Proof.RefValue.lean ====
/-
  The reference's two minimum stages read at an index, at the ideal instance: the stage before them is the
  4096 × 4096 matrix of squared distances per batch (the quadratic expansion, the inner product a sum over the three
  coordinates), and each stage is a minimum from +∞ along one axis of it.
-/
import proofs.«155115_j37623913513196_1_alg».proof.Proof.Gen.ReferenceIdeal.Run
import proofs.«155115_j37623913513196_1_alg».proof.Proof.Gen.ReferenceIdeal.Read
import proofs.«155115_j37623913513196_1_alg».proof.Proof.Spec
import Idealize.ShloMosaic.Lib.ValueIdx
import Idealize.ShloMosaic.PureOps.Ideal.Laws

noncomputable section

namespace Cert.Proof.RefValue

open Cert.ReferenceIdeal Cert.ReferenceIdeal.Gen Cert.ReferenceIdeal.Read Cert.Proof.Spec
open Idealize.ShloMosaic Idealize.ShloMosaic.ValueIdx

/-! ## Where each stage of the distance matrix reads its operands

Entry (b, n, k) of the matrix is built from the squared norm of point n of the first cloud (a sum over the coordinate d,
carried through two broadcasts that only forget k), the squared norm of point k of the second cloud (likewise,
forgetting n), and the inner product of the two points. The composed index maps are the plain coordinate triples. -/

/-- Through the two broadcasts and the coordinate sum, entry (b, n, k) reads the first cloud at (b, n, d). -/
theorem idx_sqX (b : Fin 8) (n k : Fin 4096) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

/-- Through the two broadcasts and the coordinate sum, entry (b, n, k) reads the second cloud at (b, k, d). -/
theorem idx_sqY (b : Fin 8) (n k : Fin 4096) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

/-- The inner product's left factor at (b, n, k), coordinate d, is the first cloud at (b, n, d). -/
theorem idx_dotX (b : Fin 8) (n k : Fin 4096) (d : Fin 3) :
    lidx_main_v4 (ix3 b n k) d = ix3 b n d :=
  funext fun a => Fin.ext (by match a with | ⟨0, _⟩ => rfl | ⟨1, _⟩ => rfl | ⟨2, _⟩ => rfl)

/-- The inner product's right factor at (b, n, k), coordinate d, is the second cloud at (b, k, d). -/
theorem idx_dotY (b : Fin 8) (n k : Fin 4096) (d : Fin 3) :
    ridx_main_v4 (ix3 b n k) d = ix3 b k d :=
  funext fun a => Fin.ext (by match a with | ⟨0, _⟩ => rfl | ⟨1, _⟩ => rfl | ⟨2, _⟩ => rfl)

/-- Entry (b, n, k) of the reference's distance matrix. -/
theorem dist_ref (X Y : (⟨S8x4096x3, .f32⟩ : BufTy).Contents (Elt Ideal)) (b : Fin 8) (n k : Fin 4096) :
    val_main_v12 (F := Ideal) X Y (ix3 b n k) = sqd X Y b n k := by
  -- the difference of (|x|² + |y|²) and 2 · ⟨x, y⟩, each read down to the two clouds
  rw [val_main_v12_apply, val_main_v9_apply, val_main_v7_apply, val_main_v5_apply, val_main_v1_apply,
    val_main_v8_apply, val_main_v6_apply, val_main_v3_apply, val_main_v11_apply, val_main_v10_apply,
    val_main_v4_apply]
  -- the two norm sums start from the zero word, which is 0; the literal 2.0 stays the word it is
  simp only [val_main_v0_apply, val_main_v2_apply, val_main_cst_apply, val_main_cst_0_apply, val_main_cst_1_apply,
    idx_sqX, idx_sqY, idx_dotX, idx_dotY,
    Ideal.subf_def, Ideal.addf_def, Ideal.mulf_def, Ideal.ofBits_def, Ideal.ofBits_zero_f32, zero_add]
  rfl

/-! ## A minimum along one axis of an 8 × 4096 × 4096 array

The minimum is commutative and associative, so the reduction along one axis is, at each kept index, the fold of the
minimum from the initial value (the word of +∞) over the 4096 coordinates of the dropped axis: the kept index with
that coordinate put back in its place. Stated for any array, so that the distance matrix is never opened here. -/

/-- Along the last axis: at (b, n) the minimum over k of the entries (b, n, k). -/
theorem reduce_last (D : (⟨S8x4096x4096, .f32⟩ : BufTy).Contents (Elt Ideal)) (b : Fin 8) (n : Fin 4096) :
    (Host.reduce (FloatOps.minimumf (F := Ideal) (φ := .f32)) D (val_main_cst_2 (F := Ideal))
        reducesTo_S8x4096x4096_S8x4096_d2 h_S_ : (⟨S8x4096, .f32⟩ : BufTy).Contents (Elt Ideal)) (ix2 b n)
      = (Finset.univ : Finset (Fin 4096)).fold min inf32 (fun k => D (ix3 b n k)) := by
  refine (Host.reduce_eq_fold_single (FloatOps.minimumf (F := Ideal) (φ := .f32)) D _
    reducesTo_S8x4096x4096_S8x4096_d2 (by decide) h_S_ (ix2 b n)).trans ?_
  rw [val_main_cst_2_apply]
  -- (b, n) with k inserted on the last axis is (b, n, k)
  exact Finset.fold_congr (fun k _ => congrArg D (funext fun a => Fin.ext (by
    match a with | ⟨0, _⟩ => rfl | ⟨1, _⟩ => rfl | ⟨2, _⟩ => rfl)))

/-- Along the middle axis: at (b, k) the minimum over n of the entries (b, n, k). -/
theorem reduce_mid (D : (⟨S8x4096x4096, .f32⟩ : BufTy).Contents (Elt Ideal)) (b : Fin 8) (k : Fin 4096) :
    (Host.reduce (FloatOps.minimumf (F := Ideal) (φ := .f32)) D (val_main_cst_3 (F := Ideal))
        reducesTo_S8x4096x4096_S8x4096_d1 h_S_ : (⟨S8x4096, .f32⟩ : BufTy).Contents (Elt Ideal)) (ix2 b k)
      = (Finset.univ : Finset (Fin 4096)).fold min inf32 (fun n => D (ix3 b n k)) := by
  refine (Host.reduce_eq_fold_single (FloatOps.minimumf (F := Ideal) (φ := .f32)) D _
    reducesTo_S8x4096x4096_S8x4096_d1 (by decide) h_S_ (ix2 b k)).trans ?_
  rw [val_main_cst_3_apply]
  -- (b, k) with n inserted on the middle axis is (b, n, k)
  exact Finset.fold_congr (fun n _ => congrArg D (funext fun a => Fin.ext (by
    match a with | ⟨0, _⟩ => rfl | ⟨1, _⟩ => rfl | ⟨2, _⟩ => rfl)))

/-- The minimum along the last axis: point n of the first cloud to the nearest of the second. -/
theorem ref_rows (X Y : (⟨S8x4096x3, .f32⟩ : BufTy).Contents (Elt Ideal)) (b : Fin 8) (n : Fin 4096) :
    val_main_v13 (F := Ideal) X Y (ix2 b n) = rowMin X Y b n := by
  unfold val_main_v13 rowMin
  refine (reduce_last _ b n).trans ?_
  exact Finset.fold_congr (fun k _ => dist_ref X Y b n k)

/-- The minimum along the middle axis: point k of the second cloud to the nearest of the first. -/
theorem ref_cols (X Y : (⟨S8x4096x3, .f32⟩ : BufTy).Contents (Elt Ideal)) (b : Fin 8) (k : Fin 4096) :
    val_main_v14 (F := Ideal) X Y (ix2 b k) = colMin X Y b k := by
  unfold val_main_v14 colMin
  refine (reduce_mid _ b k).trans ?_
  exact Finset.fold_congr (fun n _ => dist_ref X Y b n k)

end Cert.Proof.RefValue

end
-- ==== Proof.lean ====
/-
  The certificate of the pairwise nearest-neighbour distance kernel against its jnp reference.

  Both programs take two batches of point clouds X, Y (8 batches of 4096 points in ℝ³) and return
  mean_n min_k d(n, k) + mean_k min_n d(n, k), with d(n, k) = |x_n|² + |y_k|² − 2 x_n·y_k in one batch.
  The kernel walks a grid of 8 batches × 16 tiles of 256 rows: a point forms its 256 × 4096 tile of d, writes the
  tile's row minima out, and folds the tile's column minima into a block it carries through the batch; the host then
  sums both outputs from zero, divides by 32768 and adds. The reference forms the whole 4096 × 4096 matrix per batch
  and takes the two minima along its axes. At the ideal instance the two agree entry by entry: the inner product of
  three terms is the same sum however it is grouped, a row's minimum is the same fold, and a column's minimum taken
  tile by tile is the minimum over all rows because `min` is associative and commutative (Proof/Spec.lean). No
  finiteness of the inputs is used. The two results are then one function (the host tail) of equal arrays.

  The three frames: the kernel's (at the word level and idealized) by the pipeline's frame run over a body proved for
  every float instance (Proof/K/Body.lean, Proof/KI/Body.lean), the reference's by its run.
-/
import proofs.«155115_j37623913513196_1_alg».proof.Defs
import proofs.«155115_j37623913513196_1_alg».proof.Proof.Gen.Kernel
import proofs.«155115_j37623913513196_1_alg».proof.Proof.Gen.KernelIdeal
import proofs.«155115_j37623913513196_1_alg».proof.Proof.Gen.ReferenceIdeal
import proofs.«155115_j37623913513196_1_alg».proof.Proof.Gen.Pre_finite_inputs
import proofs.«155115_j37623913513196_1_alg».proof.Proof.K.Body
import proofs.«155115_j37623913513196_1_alg».proof.Proof.KI.Body
import proofs.«155115_j37623913513196_1_alg».proof.Proof.KI.Rows
import proofs.«155115_j37623913513196_1_alg».proof.Proof.KI.Cols
import proofs.«155115_j37623913513196_1_alg».proof.Proof.KI.Tail
import proofs.«155115_j37623913513196_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.Proof.Spec

/-! ## The two arrays of nearest-neighbour distances -/

/-- Every point of the first cloud to the nearest of the second, as an 8 × 4096 array. -/
def nearRows (X Y : Pts.Idx → EReal) : FVec Ideal Cert.KernelIdeal.S8x4096 .f32 := fun j => rowMin X Y (j 0) (j 1)
/-- Every point of the second cloud to the nearest of the first. -/
def nearCols (X Y : Pts.Idx → EReal) : FVec Ideal Cert.KernelIdeal.S8x4096 .f32 := fun j => colMin X Y (j 0) (j 1)

/-- The reference's result is the host tail of the two arrays. -/
theorem ref_result (X Y : (⟨Cert.ReferenceIdeal.S8x4096x3, .f32⟩ : BufTy).Contents (Elt Ideal)) :
    Cert.ReferenceIdeal.Read.val_main_v19 (F := Ideal) X Y = Cert.Proof.KITail.meanSum (F := Ideal) (nearRows X Y) (nearCols X Y) := by
  have e13 : Cert.ReferenceIdeal.Read.val_main_v13 (F := Ideal) X Y = nearRows X Y := funext fun j => by
    obtain ⟨b, n, rfl⟩ : ∃ (b : Fin 8) (n : Fin 4096), j = ix2 b n := ⟨j 0, j 1, eq_ix2 j⟩
    exact Cert.Proof.RefValue.ref_rows X Y b n
  have e14 : Cert.ReferenceIdeal.Read.val_main_v14 (F := Ideal) X Y = nearCols X Y := funext fun j => by
    obtain ⟨b, k, rfl⟩ : ∃ (b : Fin 8) (k : Fin 4096), j = ix2 b k := ⟨j 0, j 1, eq_ix2 j⟩
    exact Cert.Proof.RefValue.ref_cols X Y b k
  unfold Cert.ReferenceIdeal.Read.val_main_v19 Cert.ReferenceIdeal.Read.val_main_v16 Cert.ReferenceIdeal.Read.val_main_v18
    Cert.ReferenceIdeal.Read.val_main_v15 Cert.ReferenceIdeal.Read.val_main_v17
  rw [e13, e14]
  rfl

/-! ## The claims -/

theorem frame_k : Cert.frame_Kernel := fun m ρ _ => Cert.Proof.K.frame (F := Bits) m ρ
theorem frame_ki : Cert.frame_KernelIdeal := fun m ρ _ => Cert.Proof.KI.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run ends with its result at the host tail of the two arrays of nearest-neighbour
    distances (its outputs after the region, re-laid), the reference's run with the same tail of its two minimum
    stages, which are the same arrays. -/
theorem algebraic : Cert.algebraic_KernelIdeal_ReferenceIdeal := by
  intro m ρ m' ρ' _ hagree
  refine ⟨fun c => Cert.Proof.KITail.meanSum (F := Ideal)
      (nearRows (Cert.Proof.KIBlocks.Xarr m c) (Cert.Proof.KIBlocks.Yarr m c))
      (nearCols (Cert.Proof.KIBlocks.Xarr m c) (Cert.Proof.KIBlocks.Yarr m c)), ?_, ?_⟩
  · refine (θ_run Cert.KernelIdeal.defs _ _).mono (fun r h c => ⟨?_, ?_, ?_⟩) (Cert.Proof.KI.run_main (F := Ideal) m ρ)
    · exact ((h c).2 Cert.KernelIdeal.main_v7 (by decide)).trans
        (Cert.Proof.KITail.tail_v7 m c _ _ (fun b n => Cert.Proof.KIRows.rows_final m c b n)
          (fun b k => Cert.Proof.KICols.cols_final m c b k))
    · exact ((h c).1 0).trans (((Cert.Proof.KI.dats m 0 c).arrAt_in 0 rfl _).trans
        ((Cert.Proof.KI.A_eq m c 0).trans (Cert.KernelIdeal.Gen.V_main_arg0 m c)))
    · exact ((h c).1 1).trans (((Cert.Proof.KI.dats m 0 c).arrAt_in 1 rfl _).trans
        ((Cert.Proof.KI.A_eq m c 1).trans (Cert.KernelIdeal.Gen.V_main_arg1 m c)))
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v19_eq]
    exact ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
